-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S300000x64 : Shape := ⟨2, ![300000, 64]⟩
abbrev S3000000 : Shape := ⟨1, ![3000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S300000x64 .f32) (main_arg2 : IVec S3000000 32) (main_arg3 : IVec S3000000 32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S300000x64 : Shape := ⟨2, ![300000, 64]⟩
abbrev S3000000 : Shape := ⟨1, ![3000000]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S_ : Shape := ⟨0, ![]⟩
abbrev S3000000x1 : Shape := ⟨2, ![3000000, 1]⟩
abbrev S3000000x64 : Shape := ⟨2, ![3000000, 64]⟩
abbrev S300000 : Shape := ⟨1, ![300000]⟩
abbrev S300000x1 : Shape := ⟨2, ![300000, 1]⟩
abbrev S100000 : Shape := ⟨1, ![100000]⟩
abbrev S100000x1 : Shape := ⟨2, ![100000, 1]⟩

abbrev nBuf : Space → Nat
  | .hbm => 65
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S300000x64, .f32⟩
  | .hbm, ⟨2, _⟩ => ⟨S3000000, .i32⟩
  | .hbm, ⟨3, _⟩ => ⟨S3000000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S100000x64, .f32⟩
  | .hbm, ⟨10, _⟩ => ⟨S_, .i32⟩
  | .hbm, ⟨11, _⟩ => ⟨S3000000, .i32⟩
  | .hbm, ⟨12, _⟩ => ⟨S3000000, .i1⟩
  | .hbm, ⟨13, _⟩ => ⟨S_, .i32⟩
  | .hbm, ⟨14, _⟩ => ⟨S3000000, .i32⟩
  | .hbm, ⟨15, _⟩ => ⟨S3000000, .i32⟩
  | .hbm, ⟨16, _⟩ => ⟨S3000000, .i32⟩
  | .hbm, ⟨17, _⟩ => ⟨S3000000x1, .i32⟩
  | .hbm, ⟨18, _⟩ => ⟨S3000000x64, .f32⟩
  | .hbm, ⟨19, _⟩ => ⟨S_, .f32⟩
  | .hbm, ⟨20, _⟩ => ⟨S300000x64, .f32⟩
  | .hbm, ⟨21, _⟩ => ⟨S3000000x1, .i32⟩
  | .hbm, ⟨22, _⟩ => ⟨S300000x64, .f32⟩
  | .hbm, ⟨23, _⟩ => ⟨S_, .f32⟩
  | .hbm, ⟨24, _⟩ => ⟨S3000000, .f32⟩
  | .hbm, ⟨25, _⟩ => ⟨S_, .f32⟩
  | .hbm, ⟨26, _⟩ => ⟨S300000, .f32⟩
  | .hbm, ⟨27, _⟩ => ⟨S3000000x1, .i32⟩
  | .hbm, ⟨28, _⟩ => ⟨S300000, .f32⟩
  | .hbm, ⟨29, _⟩ => ⟨S_, .f32⟩
  | .hbm, ⟨30, _⟩ => ⟨S300000, .f32⟩
  | .hbm, ⟨31, _⟩ => ⟨S300000, .f32⟩
  | .hbm, ⟨32, _⟩ => ⟨S300000x1, .f32⟩
  | .hbm, ⟨33, _⟩ => ⟨S300000x64, .f32⟩
  | .hbm, ⟨34, _⟩ => ⟨S300000x64, .f32⟩
  | .hbm, ⟨35, _⟩ => ⟨S300000x64, .f32⟩
  | .hbm, ⟨36, _⟩ => ⟨S1x64, .f32⟩
  | .hbm, ⟨37, _⟩ => ⟨S300000x64, .f32⟩
  | .hbm, ⟨38, _⟩ => ⟨S_, .i32⟩
  | .hbm, ⟨39, _⟩ => ⟨S3000000, .i32⟩
  | .hbm, ⟨40, _⟩ => ⟨S3000000, .i1⟩
  | .hbm, ⟨41, _⟩ => ⟨S_, .i32⟩
  | .hbm, ⟨42, _⟩ => ⟨S3000000, .i32⟩
  | .hbm, ⟨43, _⟩ => ⟨S3000000, .i32⟩
  | .hbm, ⟨44, _⟩ => ⟨S3000000, .i32⟩
  | .hbm, ⟨45, _⟩ => ⟨S3000000x1, .i32⟩
  | .hbm, ⟨46, _⟩ => ⟨S3000000x64, .f32⟩
  | .hbm, ⟨47, _⟩ => ⟨S_, .f32⟩
  | .hbm, ⟨48, _⟩ => ⟨S100000x64, .f32⟩
  | .hbm, ⟨49, _⟩ => ⟨S3000000x1, .i32⟩
  | .hbm, ⟨50, _⟩ => ⟨S100000x64, .f32⟩
  | .hbm, ⟨51, _⟩ => ⟨S_, .f32⟩
  | .hbm, ⟨52, _⟩ => ⟨S3000000, .f32⟩
  | .hbm, ⟨53, _⟩ => ⟨S_, .f32⟩
  | .hbm, ⟨54, _⟩ => ⟨S100000, .f32⟩
  | .hbm, ⟨55, _⟩ => ⟨S3000000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S300000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S3000000 : S_.BroadcastsInDim S3000000 (![] : Fin 0 → Fin S3000000.rank)
  bcast_S3000000_S3000000x1_0 : S3000000.BroadcastsInDim S3000000x1 (![0] : Fin 1 → Fin S3000000x1.rank)
  bcast_S_S300000x64 : S_.BroadcastsInDim S300000x64 (![] : Fin 0 → Fin S300000x64.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x64_0_1 : S300000x1.BroadcastsInDim S300000x64 (![0, 1] : Fin 2 → Fin S300000x64.rank)
  shapeCasts_S10000x64_S10000x64 : S10000x64.ShapeCasts S10000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S10000x64_S64x64_S10000x64_1_0_0_1_n_n_wf : DotDims.WF S10000x64 S64x64 S10000x64 [1] [0] [0] [1] [] []
  gather_S100000x64_S3000000x1_S3000000x64_1_0_n_n_0_1_164_wf : GatherDims.WF S100000x64 S3000000x1 S3000000x64 [1] [0] [] [0] [] 1 ![1, 64]
  scatter_S300000x64_S3000000x1_S3000000x64_1_0_0_1_wf : ScatterDims.WF S300000x64 S3000000x1 S3000000x64 [1] [0] [0] 1
  scatter_S300000_S3000000x1_S3000000_n_0_0_1_wf : ScatterDims.WF S300000 S3000000x1 S3000000 [] [0] [0] 1
  gather_S300000x64_S3000000x1_S3000000x64_1_0_n_n_0_1_164_wf : GatherDims.WF S300000x64 S3000000x1 S3000000x64 [1] [0] [] [0] [] 1 ![1, 64]
  scatter_S100000x64_S3000000x1_S3000000x64_1_0_0_1_wf : ScatterDims.WF S100000x64 S3000000x1 S3000000x64 [1] [0] [0] 1
  scatter_S100000_S3000000x1_S3000000_n_0_0_1_wf : ScatterDims.WF S100000 S3000000x1 S3000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S300000x64.size a
  hwx1_0 : ∀ i : grid1.Coords, EltTy.bits .f32 = 32 ∨ (Rect.block (s := S300000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S300000x64.size a
  hwx1_1 : ∀ i : grid1.Coords, EltTy.bits .f32 = 32 ∨ (Rect.block (s := S300000x64) S10000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S300000x64.size a
  hwx2_0 : ∀ i : grid2.Coords, EltTy.bits .f32 = 32 ∨ (Rect.block (s := S300000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S300000x64.size a
  hwx2_3 : ∀ i : grid2.Coords, EltTy.bits .f32 = 32 ∨ (Rect.block (s := S300000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S300000x64.size a
  hwx3_0 : ∀ i : grid3.Coords, EltTy.bits .f32 = 32 ∨ (Rect.block (s := S300000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S300000x64.size a
  hwx3_3 : ∀ i : grid3.Coords, EltTy.bits .f32 = 32 ∨ (Rect.block (s := S300000x64) S10000x64.size (cc3_transform_3 i) (hinb3_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3000000x1_S3000000x64_1_0_n_n_0_1_164 : GatherDims S100000x64 S3000000x1 S3000000x64 where
  offsetDims := [1]
  collapsedSliceDims := [0]
  operandBatchingDims := []
  startIndicesBatchingDims := []
  startIndexMap := [0]
  indexVectorDim := 1
  sliceSizes := ![1, 64]
  wf := gather_S100000x64_S3000000x1_S3000000x64_1_0_n_n_0_1_164_wf
def scatter_S300000x64_S3000000x1_S3000000x64_1_0_0_1 : ScatterDims S300000x64 S3000000x1 S3000000x64 where
  updateWindowDims := [1]
  insertedWindowDims := [0]
  scatterDimsToOperandDims := [0]
  indexVectorDim := 1
  wf := scatter_S300000x64_S3000000x1_S3000000x64_1_0_0_1_wf
def scatter_S300000_S3000000x1_S3000000_n_0_0_1 : ScatterDims S300000 S3000000x1 S3000000 where
  updateWindowDims := []
  insertedWindowDims := [0]
  scatterDimsToOperandDims := [0]
  indexVectorDim := 1
  wf := scatter_S300000_S3000000x1_S3000000_n_0_0_1_wf
def gather_S300000x64_S3000000x1_S3000000x64_1_0_n_n_0_1_164 : GatherDims S300000x64 S3000000x1 S3000000x64 where
  offsetDims := [1]
  collapsedSliceDims := [0]
  operandBatchingDims := []
  startIndicesBatchingDims := []
  startIndexMap := [0]
  indexVectorDim := 1
  sliceSizes := ![1, 64]
  wf := gather_S300000x64_S3000000x1_S3000000x64_1_0_n_n_0_1_164_wf
def scatter_S100000x64_S3000000x1_S3000000x64_1_0_0_1 : ScatterDims S100000x64 S3000000x1 S3000000x64 where
  updateWindowDims := [1]
  insertedWindowDims := [0]
  scatterDimsToOperandDims := [0]
  indexVectorDim := 1
  wf := scatter_S100000x64_S3000000x1_S3000000x64_1_0_0_1_wf
def scatter_S100000_S3000000x1_S3000000_n_0_0_1 : ScatterDims S100000 S3000000x1 S3000000 where
  updateWindowDims := []
  insertedWindowDims := [0]
  scatterDimsToOperandDims := [0]
  indexVectorDim := 1
  wf := scatter_S100000_S3000000x1_S3000000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v21) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S300000x64 : Shape := ⟨2, ![300000, 64]⟩
abbrev S3000000 : Shape := ⟨1, ![3000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S3000000x1 : Shape := ⟨2, ![3000000, 1]⟩
abbrev S3000000x64 : Shape := ⟨2, ![3000000, 64]⟩
abbrev S300000 : Shape := ⟨1, ![300000]⟩
abbrev S300000x1 : Shape := ⟨2, ![300000, 1]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S300000x64, .f32⟩
  | .hbm, ⟨2, _⟩ => ⟨S3000000, .i32⟩
  | .hbm, ⟨3, _⟩ => ⟨S3000000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .i32⟩
  | .hbm, ⟨13, _⟩ => ⟨S3000000, .i32⟩
  | .hbm, ⟨14, _⟩ => ⟨S3000000, .i1⟩
  | .hbm, ⟨15, _⟩ => ⟨S_, .i32⟩
  | .hbm, ⟨16, _⟩ => ⟨S3000000, .i32⟩
  | .hbm, ⟨17, _⟩ => ⟨S3000000, .i32⟩
  | .hbm, ⟨18, _⟩ => ⟨S3000000, .i32⟩
  | .hbm, ⟨19, _⟩ => ⟨S3000000x1, .i32⟩
  | .hbm, ⟨20, _⟩ => ⟨S3000000x64, .f32⟩
  | .hbm, ⟨21, _⟩ => ⟨S_, .f32⟩
  | .hbm, ⟨22, _⟩ => ⟨S300000x64, .f32⟩
  | .hbm, ⟨23, _⟩ => ⟨S3000000x1, .i32⟩
  | .hbm, ⟨24, _⟩ => ⟨S300000x64, .f32⟩
  | .hbm, ⟨25, _⟩ => ⟨S_, .f32⟩
  | .hbm, ⟨26, _⟩ => ⟨S3000000, .f32⟩
  | .hbm, ⟨27, _⟩ => ⟨S_, .f32⟩
  | .hbm, ⟨28, _⟩ => ⟨S300000, .f32⟩
  | .hbm, ⟨29, _⟩ => ⟨S3000000x1, .i32⟩
  | .hbm, ⟨30, _⟩ => ⟨S300000, .f32⟩
  | .hbm, ⟨31, _⟩ => ⟨S_, .f32⟩
  | .hbm, ⟨32, _⟩ => ⟨S300000, .f32⟩
  | .hbm, ⟨33, _⟩ => ⟨S300000, .f32⟩
  | .hbm, ⟨34, _⟩ => ⟨S300000x1, .f32⟩
  | .hbm, ⟨35, _⟩ => ⟨S300000x64, .f32⟩
  | .hbm, ⟨36, _⟩ => ⟨S300000x64, .f32⟩
  | .hbm, ⟨37, _⟩ => ⟨S_, .f32⟩
  | .hbm, ⟨38, _⟩ => ⟨S300000x64, .f32⟩
  | .hbm, ⟨39, _⟩ => ⟨S300000x64, .f32⟩
  | .hbm, ⟨40, _⟩ => ⟨S300000x64, .f32⟩
  | .hbm, ⟨41, _⟩ => ⟨S1x64, .f32⟩
  | .hbm, ⟨42, _⟩ => ⟨S300000x64, .f32⟩
  | .hbm, ⟨43, _⟩ => ⟨S300000x64, .f32⟩
  | .hbm, ⟨44, _⟩ => ⟨S_, .i32⟩
  | .hbm, ⟨45, _⟩ => ⟨S3000000, .i32⟩
  | .hbm, ⟨46, _⟩ => ⟨S3000000, .i1⟩
  | .hbm, ⟨47, _⟩ => ⟨S_, .i32⟩
  | .hbm, ⟨48, _⟩ => ⟨S3000000, .i32⟩
  | .hbm, ⟨49, _⟩ => ⟨S3000000, .i32⟩
  | .hbm, ⟨50, _⟩ => ⟨S3000000, .i32⟩
  | .hbm, ⟨51, _⟩ => ⟨S3000000x1, .i32⟩
  | .hbm, ⟨52, _⟩ => ⟨S3000000x64, .f32⟩
  | .hbm, ⟨53, _⟩ => ⟨S_, .f32⟩
  | .hbm, ⟨54, _⟩ => ⟨S100000x64, .f32⟩
  | .hbm, ⟨55, _⟩ => ⟨S3000000x1, .i32⟩
  | .hbm, ⟨56, _⟩ => ⟨S100000x64, .f32⟩
  | .hbm, ⟨57, _⟩ => ⟨S_, .f32⟩
  | .hbm, ⟨58, _⟩ => ⟨S3000000, .f32⟩
  | .hbm, ⟨59, _⟩ => ⟨S_, .f32⟩
  | .hbm, ⟨60, _⟩ => ⟨S100000, .f32⟩
  | .hbm, ⟨61, _⟩ => ⟨S3000000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S300000x64, .f32⟩
  | .hbm, ⟨70, _⟩ => ⟨S1x64, .f32⟩
  | .hbm, ⟨71, _⟩ => ⟨S300000x64, .f32⟩
  | .hbm, ⟨72, _⟩ => ⟨S300000x64, .f32⟩
  | .hbm, ⟨73, _⟩ => ⟨S_, .f32⟩
  | .hbm, ⟨74, _⟩ => ⟨S300000x64, .f32⟩
  | .hbm, ⟨75, _⟩ => ⟨S300000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3000000 : S_.BroadcastsInDim S3000000 (![] : Fin 0 → Fin S3000000.rank)
  bcast_S3000000_S3000000x1_0 : S3000000.BroadcastsInDim S3000000x1 (![0] : Fin 1 → Fin S3000000x1.rank)
  bcast_S_S300000x64 : S_.BroadcastsInDim S300000x64 (![] : Fin 0 → Fin S300000x64.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x64_0_1 : S300000x1.BroadcastsInDim S300000x64 (![0, 1] : Fin 2 → Fin S300000x64.rank)
  bcast_S1x64_S300000x64_0_1 : S1x64.BroadcastsInDim S300000x64 (![0, 1] : Fin 2 → Fin S300000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S3000000x1_S3000000x64_1_0_n_n_0_1_164_wf : GatherDims.WF S100000x64 S3000000x1 S3000000x64 [1] [0] [] [0] [] 1 ![1, 64]
  scatter_S300000x64_S3000000x1_S3000000x64_1_0_0_1_wf : ScatterDims.WF S300000x64 S3000000x1 S3000000x64 [1] [0] [0] 1
  scatter_S300000_S3000000x1_S3000000_n_0_0_1_wf : ScatterDims.WF S300000 S3000000x1 S3000000 [] [0] [0] 1
  dot_S300000x64_S64x64_S300000x64_1_0_0_1_n_n_wf : DotDims.WF S300000x64 S64x64 S300000x64 [1] [0] [0] [1] [] []
  gather_S300000x64_S3000000x1_S3000000x64_1_0_n_n_0_1_164_wf : GatherDims.WF S300000x64 S3000000x1 S3000000x64 [1] [0] [] [0] [] 1 ![1, 64]
  scatter_S100000x64_S3000000x1_S3000000x64_1_0_0_1_wf : ScatterDims.WF S100000x64 S3000000x1 S3000000x64 [1] [0] [0] 1
  scatter_S100000_S3000000x1_S3000000_n_0_0_1_wf : ScatterDims.WF S100000 S3000000x1 S3000000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3000000x1_S3000000x64_1_0_n_n_0_1_164 : GatherDims S100000x64 S3000000x1 S3000000x64 where
  offsetDims := [1]
  collapsedSliceDims := [0]
  operandBatchingDims := []
  startIndicesBatchingDims := []
  startIndexMap := [0]
  indexVectorDim := 1
  sliceSizes := ![1, 64]
  wf := gather_S100000x64_S3000000x1_S3000000x64_1_0_n_n_0_1_164_wf
def scatter_S300000x64_S3000000x1_S3000000x64_1_0_0_1 : ScatterDims S300000x64 S3000000x1 S3000000x64 where
  updateWindowDims := [1]
  insertedWindowDims := [0]
  scatterDimsToOperandDims := [0]
  indexVectorDim := 1
  wf := scatter_S300000x64_S3000000x1_S3000000x64_1_0_0_1_wf
def scatter_S300000_S3000000x1_S3000000_n_0_0_1 : ScatterDims S300000 S3000000x1 S3000000 where
  updateWindowDims := []
  insertedWindowDims := [0]
  scatterDimsToOperandDims := [0]
  indexVectorDim := 1
  wf := scatter_S300000_S3000000x1_S3000000_n_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S300000x64_S3000000x1_S3000000x64_1_0_n_n_0_1_164 : GatherDims S300000x64 S3000000x1 S3000000x64 where
  offsetDims := [1]
  collapsedSliceDims := [0]
  operandBatchingDims := []
  startIndicesBatchingDims := []
  startIndexMap := [0]
  indexVectorDim := 1
  sliceSizes := ![1, 64]
  wf := gather_S300000x64_S3000000x1_S3000000x64_1_0_n_n_0_1_164_wf
def scatter_S100000x64_S3000000x1_S3000000x64_1_0_0_1 : ScatterDims S100000x64 S3000000x1 S3000000x64 where
  updateWindowDims := [1]
  insertedWindowDims := [0]
  scatterDimsToOperandDims := [0]
  indexVectorDim := 1
  wf := scatter_S100000x64_S3000000x1_S3000000x64_1_0_0_1_wf
def scatter_S100000_S3000000x1_S3000000_n_0_0_1 : ScatterDims S100000 S3000000x1 S3000000 where
  updateWindowDims := []
  insertedWindowDims := [0]
  scatterDimsToOperandDims := [0]
  indexVectorDim := 1
  wf := scatter_S100000_S3000000x1_S3000000_n_0_0_1_wf

class Facts : Prop extends Facts₀ where

variable [Facts]
-- ==== Proof.Walk.lean ====
/-
  The run of the kernel program is a fold through eight boundaries: a stretch of host operations, then a kernel
  region, four times over.  This module walks single buffers back through that fold.  A host stretch changes only the
  buffers its operations write; a region changes only its output array.  So an argument array that nobody writes
  holds its launch contents at every boundary, and each kernel region finds its weight, its bias and the index arrays
  as launched.
-/
import proofs.«176782_j17119739641883_1_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## What each host stretch writes -/

abbrev written0 : List (Ref sig .tc) := [main_v0]
abbrev written1 : List (Ref sig .tc) := [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_v20]
abbrev written2 : List (Ref sig .tc) := [main_v22]
abbrev written3 : List (Ref sig .tc) := [main_c_4, main_v24, main_v25, main_c_5, main_v26, main_v27, main_v28, main_v29, main_v30, main_cst_6, main_v31, main_v32, main_v33, main_cst_7, main_v34, main_cst_8, main_v35, main_v36, main_v37, main_cst_9, main_v38, main_v39, main_v40, main_v41, main_v42, main_v43]

theorem host0_writes : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem host1_writes : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem host2_writes : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
theorem host3_writes : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## One step back through the fold -/

theorem back1 (c : Dev nD) (r : Ref sig .tc) (h : r ∉ written0) : W1 m ρ c (Proc.devRef .tc r) = m ((c : Thread nD τ).loc r) :=
  StableHlo.after_of_writes_sub hostOps0 _ host0_writes h
theorem back3 (c : Dev nD) (r : Ref sig .tc) (h : r ∉ written1) : W3 m ρ c (Proc.devRef .tc r) = W2 m ρ c (Proc.devRef .tc r) :=
  StableHlo.after_of_writes_sub hostOps1 _ host1_writes h
theorem back5 (c : Dev nD) (r : Ref sig .tc) (h : r ∉ written2) : W5 m ρ c (Proc.devRef .tc r) = W4 m ρ c (Proc.devRef .tc r) :=
  StableHlo.after_of_writes_sub hostOps2 _ host2_writes h
theorem back7 (c : Dev nD) (r : Ref sig .tc) (h : r ∉ written3) : W7 m ρ c (Proc.devRef .tc r) = W6 m ρ c (Proc.devRef .tc r) :=
  StableHlo.after_of_writes_sub hostOps3 _ host3_writes h

/-! ## A buffer nobody writes, at each boundary -/

theorem at2 (c : Dev nD) (r : Ref sig .tc) (h0 : r ∉ written0) (h1 : ∀ w, Pipeline.arrRef spec0 w ≠ r) :
    W2 m ρ c (Proc.devRef .tc r) = m ((c : Thread nD τ).loc r) :=
  (W2_of_ne m ρ c r h1).trans (back1 m ρ c r h0)
theorem at3 (c : Dev nD) (r : Ref sig .tc) (h0 : r ∉ written0) (h1 : ∀ w, Pipeline.arrRef spec0 w ≠ r) (h2 : r ∉ written1) :
    W3 m ρ c (Proc.devRef .tc r) = m ((c : Thread nD τ).loc r) :=
  (back3 m ρ c r h2).trans (at2 m ρ c r h0 h1)
theorem at4 (c : Dev nD) (r : Ref sig .tc) (h0 : r ∉ written0) (h1 : ∀ w, Pipeline.arrRef spec0 w ≠ r) (h2 : r ∉ written1)
    (h3 : ∀ w, Pipeline.arrRef spec1 w ≠ r) : W4 m ρ c (Proc.devRef .tc r) = m ((c : Thread nD τ).loc r) :=
  (W4_of_ne m ρ c r h3).trans (at3 m ρ c r h0 h1 h2)
theorem at5 (c : Dev nD) (r : Ref sig .tc) (h0 : r ∉ written0) (h1 : ∀ w, Pipeline.arrRef spec0 w ≠ r) (h2 : r ∉ written1)
    (h3 : ∀ w, Pipeline.arrRef spec1 w ≠ r) (h4 : r ∉ written2) : W5 m ρ c (Proc.devRef .tc r) = m ((c : Thread nD τ).loc r) :=
  (back5 m ρ c r h4).trans (at4 m ρ c r h0 h1 h2 h3)
theorem at6 (c : Dev nD) (r : Ref sig .tc) (h0 : r ∉ written0) (h1 : ∀ w, Pipeline.arrRef spec0 w ≠ r) (h2 : r ∉ written1)
    (h3 : ∀ w, Pipeline.arrRef spec1 w ≠ r) (h4 : r ∉ written2) (h5 : ∀ w, Pipeline.arrRef spec2 w ≠ r) :
    W6 m ρ c (Proc.devRef .tc r) = m ((c : Thread nD τ).loc r) :=
  (W6_of_ne m ρ c r h5).trans (at5 m ρ c r h0 h1 h2 h3 h4)
theorem at7 (c : Dev nD) (r : Ref sig .tc) (h0 : r ∉ written0) (h1 : ∀ w, Pipeline.arrRef spec0 w ≠ r) (h2 : r ∉ written1)
    (h3 : ∀ w, Pipeline.arrRef spec1 w ≠ r) (h4 : r ∉ written2) (h5 : ∀ w, Pipeline.arrRef spec2 w ≠ r) (h6 : r ∉ written3) :
    W7 m ρ c (Proc.devRef .tc r) = m ((c : Thread nD τ).loc r) :=
  (back7 m ρ c r h6).trans (at6 m ρ c r h0 h1 h2 h3 h4 h5)

/-! ## The buffers the regions and the later stretches read -/

theorem features_at1 (c : Dev nD) : W1 m ρ c (Proc.devRef .tc main_arg0) = m ((c : Thread nD τ).loc main_arg0) := back1 m ρ c _ (by decide)
theorem weight_at1 (c : Dev nD) : W1 m ρ c (Proc.devRef .tc main_arg4) = m ((c : Thread nD τ).loc main_arg4) := back1 m ρ c _ (by decide)
theorem gatherIdx_at2 (c : Dev nD) : W2 m ρ c (Proc.devRef .tc main_arg2) = m ((c : Thread nD τ).loc main_arg2) := at2 m ρ c _ (by decide) (by decide)
theorem segmentIdx_at2 (c : Dev nD) : W2 m ρ c (Proc.devRef .tc main_arg3) = m ((c : Thread nD τ).loc main_arg3) := at2 m ρ c _ (by decide) (by decide)
theorem bias2_at4 (c : Dev nD) : W4 m ρ c (Proc.devRef .tc main_arg7) = m ((c : Thread nD τ).loc main_arg7) := at4 m ρ c _ (by decide) (by decide) (by decide) (by decide)
theorem weight2_at5 (c : Dev nD) : W5 m ρ c (Proc.devRef .tc main_arg6) = m ((c : Thread nD τ).loc main_arg6) := at5 m ρ c _ (by decide) (by decide) (by decide) (by decide) (by decide)
theorem activations_at5 (c : Dev nD) : W5 m ρ c (Proc.devRef .tc main_v21) = W4 m ρ c (Proc.devRef .tc main_v21) := back5 m ρ c _ (by decide)
theorem litIdx_at6 (c : Dev nD) : W6 m ρ c (Proc.devRef .tc main_arg2) = m ((c : Thread nD τ).loc main_arg2) := at6 m ρ c _ (by decide) (by decide) (by decide) (by decide) (by decide) (by decide)
theorem clauseIdx_at6 (c : Dev nD) : W6 m ρ c (Proc.devRef .tc main_arg3) = m ((c : Thread nD τ).loc main_arg3) := at6 m ρ c _ (by decide) (by decide) (by decide) (by decide) (by decide) (by decide)
theorem bias_at6 (c : Dev nD) : W6 m ρ c (Proc.devRef .tc main_arg5) = m ((c : Thread nD τ).loc main_arg5) := at6 m ρ c _ (by decide) (by decide) (by decide) (by decide) (by decide) (by decide)
theorem clauseFeatures_at7 (c : Dev nD) : W7 m ρ c (Proc.devRef .tc main_arg1) = m ((c : Thread nD τ).loc main_arg1) := at7 m ρ c _ (by decide) (by decide) (by decide) (by decide) (by decide) (by decide) (by decide)

/-- The first weight is an input window of region 0, which reads it and never writes it back; everything else on the
    way to region 3 leaves it alone. -/
theorem weight_at7 (c : Dev nD) : W7 m ρ c (Proc.devRef .tc main_arg4) = m ((c : Thread nD τ).loc main_arg4) :=
  calc W7 m ρ c (Proc.devRef .tc main_arg4)
    _ = W6 m ρ c (Proc.devRef .tc main_arg4) := back7 m ρ c _ (by decide)
    _ = W5 m ρ c (Proc.devRef .tc main_arg4) := W6_of_ne m ρ c _ (by decide)
    _ = W4 m ρ c (Proc.devRef .tc main_arg4) := back5 m ρ c _ (by decide)
    _ = W3 m ρ c (Proc.devRef .tc main_arg4) := W4_of_ne m ρ c _ (by decide)
    _ = W2 m ρ c (Proc.devRef .tc main_arg4) := back3 m ρ c _ (by decide)
    _ = W1 m ρ c (Proc.devRef .tc main_arg4) := (W2_arr m ρ c 1).trans (((dat0 (V1 m ρ) c).arrAt_in 1 rfl _).trans (A_eq0 (V1 m ρ) c 1))
    _ = m ((c : Thread nD τ).loc main_arg4) := weight_at1 m ρ c

end Cert.KernelIdeal.Walk

end
-- ==== Proof.Stretch.lean ====
/-
  The host operations between the kernel regions, read as functions of the buffers they start from.

  Between regions 0 and 1, and again after region 2, the program averages messages over edges: it gathers one row of a
  feature table per edge (the row index wrapped once if negative), adds each gathered row into the row of a zero table
  that the edge's other endpoint names, counts the edges arriving at each row the same way (adding ones), and divides
  each row by its count, or by one where no edge arrives.  `clauseMean` is that computation from 100000 literal rows
  to 300000 clause rows, `litMean` the one back.  The other stretches only recast a bias vector as a one-row matrix.
-/
import proofs.«176782_j17119739641883_1_alg».proof.Proof.Gen.KernelIdeal.Frame
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- Mean over the edges arriving at each of the 300000 clause rows of the rows of `Y` the edges leave from: edge `e`
    leaves literal row `g e` (wrapped by 100000 when negative) and arrives at clause row `s e`. -/
def clauseMean (Y : (⟨S100000x64, .f32⟩ : BufTy).Contents (Elt F)) (g s : (⟨S3000000, .i32⟩ : BufTy).Contents (Elt F)) :
    (⟨S300000x64, .f32⟩ : BufTy).Contents (Elt F) :=
  Host.divf
    (Host.scatterAdd scatter_S300000x64_S3000000x1_S3000000x64_1_0_0_1
      (broadcastInDim S300000x64 ![] bcast_S_S300000x64 (constant S_ .f32 0x00000000#32))
      (broadcastInDim S3000000x1 ![0] bcast_S3000000_S3000000x1_0 s)
      (Host.gather gather_S100000x64_S3000000x1_S3000000x64_1_0_n_n_0_1_164 Y
        (broadcastInDim S3000000x1 ![0] bcast_S3000000_S3000000x1_0
          (select (cmpi .slt g (broadcastInDim S3000000 ![] bcast_S_S3000000 (constantI S_ 32 0#32)))
            (addi g (broadcastInDim S3000000 ![] bcast_S_S3000000 (constantI S_ 32 100000#32))) g))))
    (broadcastInDim S300000x64 ![0, 1] bcast_S300000x1_S300000x64_0_1
      (broadcastInDim S300000x1 ![0] bcast_S300000_S300000x1_0
        (maximumf
          (Host.scatterAdd scatter_S300000_S3000000x1_S3000000_n_0_0_1
            (broadcastInDim S300000 ![] bcast_S_S300000 (constant S_ .f32 0x00000000#32))
            (broadcastInDim S3000000x1 ![0] bcast_S3000000_S3000000x1_0 s)
            (broadcastInDim S3000000 ![] bcast_S_S3000000 (constant S_ .f32 0x3F800000#32)))
          (broadcastInDim S300000 ![] bcast_S_S300000 (constant S_ .f32 0x3F800000#32)))))

/-- Mean over the edges arriving at each of the 100000 literal rows of the rows of `Z` the edges leave from: edge `e`
    leaves clause row `g e` (wrapped by 300000 when negative) and arrives at literal row `s e`. -/
def litMean (Z : (⟨S300000x64, .f32⟩ : BufTy).Contents (Elt F)) (g s : (⟨S3000000, .i32⟩ : BufTy).Contents (Elt F)) :
    (⟨S100000x64, .f32⟩ : BufTy).Contents (Elt F) :=
  Host.divf
    (Host.scatterAdd scatter_S100000x64_S3000000x1_S3000000x64_1_0_0_1
      (broadcastInDim S100000x64 ![] bcast_S_S100000x64 (constant S_ .f32 0x00000000#32))
      (broadcastInDim S3000000x1 ![0] bcast_S3000000_S3000000x1_0 s)
      (Host.gather gather_S300000x64_S3000000x1_S3000000x64_1_0_n_n_0_1_164 Z
        (broadcastInDim S3000000x1 ![0] bcast_S3000000_S3000000x1_0
          (select (cmpi .slt g (broadcastInDim S3000000 ![] bcast_S_S3000000 (constantI S_ 32 0#32)))
            (addi g (broadcastInDim S3000000 ![] bcast_S_S3000000 (constantI S_ 32 300000#32))) g))))
    (broadcastInDim S100000x64 ![0, 1] bcast_S100000x1_S100000x64_0_1
      (broadcastInDim S100000x1 ![0] bcast_S100000_S100000x1_0
        (maximumf
          (Host.scatterAdd scatter_S100000_S3000000x1_S3000000_n_0_0_1
            (broadcastInDim S100000 ![] bcast_S_S100000 (constant S_ .f32 0x00000000#32))
            (broadcastInDim S3000000x1 ![0] bcast_S3000000_S3000000x1_0 s)
            (broadcastInDim S3000000 ![] bcast_S_S3000000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-- Region 0's bias row is the first bias vector recast as a one-row matrix. -/
theorem biasRow_at1 (c : Dev nD) :
    (W1 m ρ c (Proc.devRef .tc main_v0) : (⟨S1x64, .f32⟩ : BufTy).Contents (Elt F))
      = fun i => shapeCast S1x64 (m ((c : Thread nD τ).loc main_arg5)) shapeCasts_S64_S1x64 i := by
  show StableHlo.after hostOps0 (W0 m ρ c) (Proc.devRef .tc main_v0) = _
  after_results
  rfl

set_option maxHeartbeats 4000000 in
/-- Region 1 finds at its input the clause means of region 0's output rows. -/
theorem clauseMean_at3 (c : Dev nD) :
    (W3 m ρ c (Proc.devRef .tc main_v20) : (⟨S300000x64, .f32⟩ : BufTy).Contents (Elt F))
      = clauseMean (W2 m ρ c (Proc.devRef .tc main_v1)) (W2 m ρ c (Proc.devRef .tc main_arg2)) (W2 m ρ c (Proc.devRef .tc main_arg3)) := by
  show StableHlo.after hostOps1 (W2 m ρ c) (Proc.devRef .tc main_v20) = _
  after_results_simp
  rfl

/-- Region 2's bias row is the second bias vector, as the boundary before holds it, recast as a one-row matrix. -/
theorem biasRow_at5 (c : Dev nD) :
    (W5 m ρ c (Proc.devRef .tc main_v22) : (⟨S1x64, .f32⟩ : BufTy).Contents (Elt F))
      = fun i => shapeCast S1x64 (W4 m ρ c (Proc.devRef .tc main_arg7)) shapeCasts_S64_S1x64 i := by
  show StableHlo.after hostOps2 (W4 m ρ c) (Proc.devRef .tc main_v22) = _
  after_results
  rfl

set_option maxHeartbeats 4000000 in
/-- The first result: the literal means of region 2's output rows. -/
theorem litMean_at7 (c : Dev nD) :
    (W7 m ρ c (Proc.devRef .tc main_v42) : (⟨S100000x64, .f32⟩ : BufTy).Contents (Elt F))
      = litMean (W6 m ρ c (Proc.devRef .tc main_v23)) (W6 m ρ c (Proc.devRef .tc main_arg3)) (W6 m ρ c (Proc.devRef .tc main_arg2)) := by
  show StableHlo.after hostOps3 (W6 m ρ c) (Proc.devRef .tc main_v42) = _
  after_results_simp
  rfl

set_option maxHeartbeats 4000000 in
/-- Region 3's bias row is the first bias vector, as the boundary before holds it, recast as a one-row matrix. -/
theorem biasRow_at7 (c : Dev nD) :
    (W7 m ρ c (Proc.devRef .tc main_v43) : (⟨S1x64, .f32⟩ : BufTy).Contents (Elt F))
      = fun i => shapeCast S1x64 (W6 m ρ c (Proc.devRef .tc main_arg5)) shapeCasts_S64_S1x64 i := by
  show StableHlo.after hostOps3 (W6 m ρ c) (Proc.devRef .tc main_v43) = _
  after_results_simp
  rfl

end Cert.KernelIdeal.Stretch

end
-- ==== Proof.DenseSpec.lean ====
/-
  The mathematics both programs compute in their dense layers, stated once over literal shapes and read index by
  index on the extended reals.

  * `affineRow X w b`: entry (r, c) is the inner product of row r of X with column c of w, plus entry c of the
    one-row bias b.  A TensorCore matrix product into a zero accumulator followed by the broadcast bias add, and the
    host's dot_general followed by the broadcast bias add, are both this function.
  * `affine X w b`: the same with the bias given as a vector of 64 entries; a one-row matrix whose row is that
    vector gives the same function.
  * `relu X`: entry by entry the larger of the entry and zero.
-/
import Idealize.ShloMosaic.PureOps.Ideal
import Idealize.ShloMosaic.Lib.ValueIdx

noncomputable section

namespace Cert.Spec

open Idealize.ShloMosaic Idealize.ShloMosaic.ValueIdx

/-- Row `r` of `X` against column `c` of `w`, plus the bias row's entry `c`. -/
def affineRow {M : ℕ} (X : FVec Ideal ⟨2, ![M, 64]⟩ .f32) (w : FVec Ideal ⟨2, ![64, 64]⟩ .f32)
    (b : FVec Ideal ⟨2, ![1, 64]⟩ .f32) : FVec Ideal ⟨2, ![M, 64]⟩ .f32 :=
  fun i => (∑ k : Fin 64, X (ix2 (i 0) k) * w (ix2 k (i 1))) + b (ix2 (0 : Fin 1) (i 1))

/-- Row `r` of `X` against column `c` of `w`, plus entry `c` of the bias vector. -/
def affine {M : ℕ} (X : FVec Ideal ⟨2, ![M, 64]⟩ .f32) (w : FVec Ideal ⟨2, ![64, 64]⟩ .f32)
    (b : FVec Ideal ⟨1, ![64]⟩ .f32) : FVec Ideal ⟨2, ![M, 64]⟩ .f32 :=
  fun i => (∑ k : Fin 64, X (ix2 (i 0) k) * w (ix2 k (i 1))) + b (ix1 (i 1))

/-- A bias row that holds the bias vector's entries gives the same affine map. -/
theorem affineRow_eq_affine {M : ℕ} (X : FVec Ideal ⟨2, ![M, 64]⟩ .f32) (w : FVec Ideal ⟨2, ![64, 64]⟩ .f32)
    (b2 : FVec Ideal ⟨2, ![1, 64]⟩ .f32) (b : FVec Ideal ⟨1, ![64]⟩ .f32)
    (h : ∀ q : Fin 64, b2 (ix2 (0 : Fin 1) q) = b (ix1 q)) : affineRow X w b2 = affine X w b :=
  funext fun i => congrArg (fun t : EReal => (∑ k : Fin 64, X (ix2 (i 0) k) * w (ix2 k (i 1))) + t) (h (i 1))

/-- The larger of each entry and zero. -/
def relu {M : ℕ} (X : FVec Ideal ⟨2, ![M, 64]⟩ .f32) : FVec Ideal ⟨2, ![M, 64]⟩ .f32 :=
  fun i => max (X i) 0

end Cert.Spec

end
-- ==== Proof.Dense0.lean ====
/-
  Region 0 of the kernel program: the first dense layer, ten row blocks of 10000 rows each.  At a grid point the body
  multiplies its 10000 × 64 block of the input by the whole 64 × 64 weight on the matrix unit (into a zero
  accumulator), adds the one-row bias broadcast down the rows, and stores the block.  Entry (p, q) of the stored block
  is therefore the inner product of the block's row p with the weight's column q plus the bias entry q; block t sits
  at rows 10000·t … 10000·t + 9999 of the array, the blocks tile the 100000 rows, so the output array after the region
  is `affineRow` of the region's three input arrays.
-/
import proofs.«176782_j17119739641883_1_alg».proof.Proof.Gen.KernelIdeal.Frame
import proofs.«176782_j17119739641883_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

/-! ## The block product: where the matrix unit's operand indices point -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's matrix product into a zero accumulator, at entry (p, q): row p against column q. -/
theorem product_apply (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- What the body stores, at entry (p, q) of the block: the product entry plus the bias row's entry q (the change of
    float format before the product is the identity on extended reals). -/
theorem stored_apply (x0 : Vec Ideal S10000x64 .f32) (x1 : Vec Ideal S64x64 .f32) (x2 : Vec Ideal S1x64 .f32)
    (p : Fin 10000) (q : Fin 64) :
    k0_pay1 (F := Ideal) x0 x1 x2 (ix2 p q) = (∑ k : Fin 64, x0 (ix2 p k) * x1 (ix2 k q)) + x2 (ix2 (0 : Fin 1) q) := by
  unfold k0_pay1
  rw [addf_apply, product_apply, shapeCast_self, broadcastTo_1b_ab_apply]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the input block and the output block move together down the
    rows, the weight, the bias and every column index stay at block zero, and point `t` is at row block `t`. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `affineRow` of the region's input arrays. -/
theorem written_back (c : Dev nD) (t : Fin cfg0.N) :
    (dat0 (F := Ideal) V c).flushed 3 t
      = ((cfg0.win 3).blk t).view.read (Elt Ideal) (affineRow (M := 100000) (V c main_arg0) (V c main_arg4) (V c main_v0)) := by
  show (cfg0.win 3).cut (grid0.coords t) ((dat0 (F := Ideal) V c).after 3 t) = _
  rw [after0_3]
  unfold out0_3
  rw [View.canon_unit_zero origin]
  simp only [View.ld_unit_zero (S := S10000x64) origin, View.ld_unit_zero (S := S64x64) origin, View.ld_unit_zero (S := S1x64) origin]
  obtain ⟨e0, e1, e2, e3, e4, e5, e6, e7⟩ := block_indices t
  funext j
  obtain ⟨p, q, rfl⟩ : ∃ (p : Fin 10000) (q : Fin 64), j = ix2 p q := ⟨j 0, j 1, eq_ix2 j⟩
  refine (stored_apply (iblk0 V c 0 t) (iblk0 V c 1 t) (iblk0 V c 2 t) p q).trans ?_
  show _ = affineRow (M := 100000) (V c main_arg0) (V c main_arg4) (V c main_v0) (((cfg0.win 3).blk t).view.emb (ix2 p q))
  unfold affineRow
  have hp : p.val < 10000 := p.isLt
  have hq : q.val < 64 := q.isLt
  have hrow : ∀ k : Fin 64, iblk0 V c 0 t (ix2 p k)
      = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have hcol : ∀ k : Fin 64, iblk0 V c 1 t (ix2 k q)
      = V c main_arg4 (ix2 k ((((cfg0.win 3).blk t).view.emb (ix2 p q)) 1)) := fun k => by
    show V c main_arg4 (((cfg0.win 1).blk t).view.emb (ix2 k q)) = _
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have hbias : iblk0 V c 2 t (ix2 (0 : Fin 1) q)
      = V c main_v0 (ix2 (0 : Fin 1) ((((cfg0.win 3).blk t).view.emb (ix2 p q)) 1)) := by
    show V c main_v0 (((cfg0.win 2).blk t).view.emb (ix2 (0 : Fin 1) q)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [hbias]
  exact congrArg (· + _) (Finset.sum_congr rfl fun k _ => by rw [hrow k, hcol k])

/-- An index of the output array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- Row `r` of the output lies in the block of point `r / 10000`: the ten blocks tile the rows. -/
theorem tiled (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < cfg0.N := by show _ < grid0.N; rw [N_0]; omega
  refine ⟨⟨(i 0).val / 10000, hN⟩, flush0_3 _, ?_⟩
  rw [mem_block]
  obtain ⟨e0, e1, e2, e3, e4, e5, e6, e7⟩ := block_indices ⟨(i 0).val / 10000, hN⟩
  have e6' : win0_3.index ⟨(i 0).val / 10000, hN⟩ (0 : Fin 2) = (i 0).val / 10000 := e6
  intro a
  match a with
  | ⟨0, _⟩ =>
    show win0_3.index ⟨(i 0).val / 10000, hN⟩ (0 : Fin 2) * 10000 ≤ (i 0).val ∧ (i 0).val < win0_3.index ⟨(i 0).val / 10000, hN⟩ (0 : Fin 2) * 10000 + 10000
    omega
  | ⟨1, _⟩ =>
    show win0_3.index ⟨(i 0).val / 10000, hN⟩ (1 : Fin 2) * 64 ≤ (i 1).val ∧ (i 1).val < win0_3.index ⟨(i 0).val / 10000, hN⟩ (1 : Fin 2) * 64 + 64
    omega

/-- THE OUTPUT ARRAY AFTER THE REGION: `affineRow` of the input array, the weight and the bias row as the region
    finds them. -/
theorem result (c : Dev nD) :
    (dat0 (F := Ideal) V c).arrAt 3 cfg0.N = affineRow (M := 100000) (V c main_arg0) (V c main_arg4) (V c main_v0) :=
  (dat0 (F := Ideal) V c).arrAt_eq_of_cover 3 _ (fun t _ => written_back V c t) tiled

end Cert.KernelIdeal.Dense0

end
-- ==== Proof.Relu1.lean ====
/-
  Region 1 of the kernel program: the activation between the two message-passing rounds, thirty row blocks of 10000
  rows over the 300000 clause rows.  The body stores, entry by entry, the larger of the loaded entry and zero; block t
  sits at rows 10000·t … 10000·t + 9999, the blocks tile the rows, so the output array is `relu` of the input array.
-/
import proofs.«176782_j17119739641883_1_alg».proof.Proof.Gen.KernelIdeal.Frame
import proofs.«176782_j17119739641883_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Relu1

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

/-- What the body stores at an entry: the larger of the loaded entry and zero (the cast of the block to its own shape
    is the identity, and the splat constant is the zero word). -/
theorem stored_apply (x0 : Vec Ideal S10000x64 .f32) (j : S10000x64.Idx) :
    k1_pay1 (F := Ideal) x0 j = max (x0 j) 0 := by
  unfold k1_pay1
  rw [maximumf_apply, shapeCast_self]
  show max _ (Ideal.ofBits .f32 0x00000000#32) = _
  rw [Ideal.ofBits_zero_f32]

variable (V : (c : Dev nD) → (b : Ref sig .tc) → Buf (Elt Ideal) ((c : Thread nD τ).loc b))

theorem origin : (![0, 0] : Fin 2 → Nat) = fun _ => 0 := funext fun a => by fin_cases a <;> rfl

/-- The printed index maps over the thirty grid points: input and output block move together, and point `t` is at row
    block `t`, column block zero. -/
theorem block_indices : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- What point `t` writes back is block `t` of `relu` of the input array. -/
theorem written_back (c : Dev nD) (t : Fin cfg1.N) :
    (dat1 (F := Ideal) V c).flushed 1 t
      = ((cfg1.win 1).blk t).view.read (Elt Ideal) (relu (M := 300000) (V c main_v20)) := by
  show (cfg1.win 1).cut (grid1.coords t) ((dat1 (F := Ideal) V c).after 1 t) = _
  rw [after1_1]
  unfold out1_1
  rw [View.canon_unit_zero origin]
  simp only [View.ld_unit_zero (S := S10000x64) origin]
  obtain ⟨e0, e1, e2, e3⟩ := block_indices t
  funext j
  refine (stored_apply (iblk1 V c 0 t) j).trans ?_
  show _ = relu (M := 300000) (V c main_v20) (((cfg1.win 1).blk t).view.emb j)
  unfold relu
  have h : iblk1 V c 0 t j = V c main_v20 (((cfg1.win 1).blk t).view.emb j) := by
    show V c main_v20 (((cfg1.win 0).blk t).view.emb j) = _
    refine congrArg (V c main_v20) (funext fun a => Fin.ext ?_)
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  exact congrArg (fun s : EReal => max s 0) h

/-- An index of the output array is in point `t`'s block iff each coordinate is in the block's range on its axis. -/
theorem mem_block (t : Fin cfg1.N) (i : S300000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v21).slice (win1_1.rect t)).set ↔ _
  rw [View.set_slice_whole, Rect.mem_set_unit]
  exact Iff.rfl

/-- Row `r` of the output lies in the block of point `r / 10000`: the thirty blocks tile the rows. -/
theorem tiled (i : S300000x64.Idx) :
    ∃ t : Fin cfg1.N, (cfg1.win 1).flush t = true ∧ i ∈ ((cfg1.win 1).blk t).view.set := by
  have hi0 : (i 0).val < 300000 := (i 0).isLt
  have hi1 : (i 1).val < 64 := (i 1).isLt
  have hN : (i 0).val / 10000 < cfg1.N := by show _ < grid1.N; rw [N_1]; omega
  refine ⟨⟨(i 0).val / 10000, hN⟩, flush1_1 _, ?_⟩
  rw [mem_block]
  obtain ⟨e0, e1, e2, e3⟩ := block_indices ⟨(i 0).val / 10000, hN⟩
  have e2' : win1_1.index ⟨(i 0).val / 10000, hN⟩ (0 : Fin 2) = (i 0).val / 10000 := e2
  intro a
  match a with
  | ⟨0, _⟩ =>
    show win1_1.index ⟨(i 0).val / 10000, hN⟩ (0 : Fin 2) * 10000 ≤ (i 0).val ∧ (i 0).val < win1_1.index ⟨(i 0).val / 10000, hN⟩ (0 : Fin 2) * 10000 + 10000
    omega
  | ⟨1, _⟩ =>
    show win1_1.index ⟨(i 0).val / 10000, hN⟩ (1 : Fin 2) * 64 ≤ (i 1).val ∧ (i 1).val < win1_1.index ⟨(i 0).val / 10000, hN⟩ (1 : Fin 2) * 64 + 64
    omega

/-- THE OUTPUT ARRAY AFTER THE REGION: `relu` of the input array as the region finds it. -/
theorem result (c : Dev nD) :
    (dat1 (F := Ideal) V c).arrAt 1 cfg1.N = relu (M := 300000) (V c main_v20) :=
  (dat1 (F := Ideal) V c).arrAt_eq_of_cover 1 _ (fun t _ => written_back V c t) tiled

end Cert.KernelIdeal.Relu1

end
-- ==== Proof.Dense2.lean ====
/-
  Region 2 of the kernel program: the second dense layer, thirty row blocks of 10000 rows over the 300000 clause rows.
  The body is the first layer's — block times weight on the matrix unit into a zero accumulator, plus the bias row —
  on other arrays: the activated clause embeddings, the second weight and the second bias.  The matrix unit's record
  is the same one, so the block product's entry is the lemma of the first layer.
-/
import proofs.«176782_j17119739641883_1_alg».proof.Proof.Gen.KernelIdeal.Frame
import proofs.«176782_j17119739641883_1_alg».proof.Proof.DenseSpec
import proofs.«176782_j17119739641883_1_alg».proof.Proof.Dense0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

/-- What the body stores, at entry (p, q) of the block: row p of the block against column q of the weight, plus the
    bias row's entry q (the cast of the block to its own shape and the change of float format are identities). -/
theorem stored_apply (x0 : Vec Ideal S10000x64 .f32) (x1 : Vec Ideal S64x64 .f32) (x2 : Vec Ideal S1x64 .f32)
    (p : Fin 10000) (q : Fin 64) :
    k2_pay1 (F := Ideal) x0 x1 x2 (ix2 p q) = (∑ k : Fin 64, x0 (ix2 p k) * x1 (ix2 k q)) + x2 (ix2 (0 : Fin 1) q) := by
  unfold k2_pay1
  rw [addf_apply, Dense0.product_apply, shapeCast_self, shapeCast_self, broadcastTo_1b_ab_apply]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 30 grid points: the input block and the output block move together down the
    rows, the weight, the bias and every column index stay at block zero, and point `t` is at row block `t`. -/
theorem block_indices : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `affineRow` of the region's input arrays. -/
theorem written_back (c : Dev nD) (t : Fin cfg2.N) :
    (dat2 (F := Ideal) V c).flushed 3 t
      = ((cfg2.win 3).blk t).view.read (Elt Ideal) (affineRow (M := 300000) (V c main_v21) (V c main_arg6) (V c main_v22)) := by
  show (cfg2.win 3).cut (grid2.coords t) ((dat2 (F := Ideal) V c).after 3 t) = _
  rw [after2_3]
  unfold out2_3
  rw [View.canon_unit_zero origin]
  simp only [View.ld_unit_zero (S := S10000x64) origin, View.ld_unit_zero (S := S64x64) origin, View.ld_unit_zero (S := S1x64) origin]
  obtain ⟨e0, e1, e2, e3, e4, e5, e6, e7⟩ := block_indices t
  funext j
  obtain ⟨p, q, rfl⟩ : ∃ (p : Fin 10000) (q : Fin 64), j = ix2 p q := ⟨j 0, j 1, eq_ix2 j⟩
  refine (stored_apply (iblk2 V c 0 t) (iblk2 V c 1 t) (iblk2 V c 2 t) p q).trans ?_
  show _ = affineRow (M := 300000) (V c main_v21) (V c main_arg6) (V c main_v22) (((cfg2.win 3).blk t).view.emb (ix2 p q))
  unfold affineRow
  have hp : p.val < 10000 := p.isLt
  have hq : q.val < 64 := q.isLt
  have hrow : ∀ k : Fin 64, iblk2 V c 0 t (ix2 p k)
      = V c main_v21 (ix2 ((((cfg2.win 3).blk t).view.emb (ix2 p q)) 0) k) := fun k => by
    show V c main_v21 (((cfg2.win 0).blk t).view.emb (ix2 p k)) = _
    refine congrArg (V c main_v21) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  have hcol : ∀ k : Fin 64, iblk2 V c 1 t (ix2 k q)
      = V c main_arg6 (ix2 k ((((cfg2.win 3).blk t).view.emb (ix2 p q)) 1)) := fun k => by
    show V c main_arg6 (((cfg2.win 1).blk t).view.emb (ix2 k q)) = _
    refine congrArg (V c main_arg6) (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  have hbias : iblk2 V c 2 t (ix2 (0 : Fin 1) q)
      = V c main_v22 (ix2 (0 : Fin 1) ((((cfg2.win 3).blk t).view.emb (ix2 p q)) 1)) := by
    show V c main_v22 (((cfg2.win 2).blk t).view.emb (ix2 (0 : Fin 1) q)) = _
    refine congrArg (V c main_v22) (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  rw [hbias]
  exact congrArg (· + _) (Finset.sum_congr rfl fun k _ => by rw [hrow k, hcol k])

/-- An index of the output array is in point `t`'s block iff each coordinate is in the block's range on its axis. -/
theorem mem_block (t : Fin cfg2.N) (i : S300000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v23).slice (win2_3.rect t)).set ↔ _
  rw [View.set_slice_whole, Rect.mem_set_unit]
  exact Iff.rfl

/-- Row `r` of the output lies in the block of point `r / 10000`: the 30 blocks tile the rows. -/
theorem tiled (i : S300000x64.Idx) :
    ∃ t : Fin cfg2.N, (cfg2.win 3).flush t = true ∧ i ∈ ((cfg2.win 3).blk t).view.set := by
  have hi0 : (i 0).val < 300000 := (i 0).isLt
  have hi1 : (i 1).val < 64 := (i 1).isLt
  have hN : (i 0).val / 10000 < cfg2.N := by show _ < grid2.N; rw [N_2]; omega
  refine ⟨⟨(i 0).val / 10000, hN⟩, flush2_3 _, ?_⟩
  rw [mem_block]
  obtain ⟨e0, e1, e2, e3, e4, e5, e6, e7⟩ := block_indices ⟨(i 0).val / 10000, hN⟩
  have e6' : win2_3.index ⟨(i 0).val / 10000, hN⟩ (0 : Fin 2) = (i 0).val / 10000 := e6
  intro a
  match a with
  | ⟨0, _⟩ =>
    show win2_3.index ⟨(i 0).val / 10000, hN⟩ (0 : Fin 2) * 10000 ≤ (i 0).val ∧ (i 0).val < win2_3.index ⟨(i 0).val / 10000, hN⟩ (0 : Fin 2) * 10000 + 10000
    omega
  | ⟨1, _⟩ =>
    show win2_3.index ⟨(i 0).val / 10000, hN⟩ (1 : Fin 2) * 64 ≤ (i 1).val ∧ (i 1).val < win2_3.index ⟨(i 0).val / 10000, hN⟩ (1 : Fin 2) * 64 + 64
    omega

/-- THE OUTPUT ARRAY AFTER THE REGION: `affineRow` of the input array, the weight and the bias row as the region
    finds them. -/
theorem result (c : Dev nD) :
    (dat2 (F := Ideal) V c).arrAt 3 cfg2.N = affineRow (M := 300000) (V c main_v21) (V c main_arg6) (V c main_v22) :=
  (dat2 (F := Ideal) V c).arrAt_eq_of_cover 3 _ (fun t _ => written_back V c t) tiled

end Cert.KernelIdeal.Dense2

end
-- ==== Proof.Dense3.lean ====
/-
  Region 3 of the kernel program: the clause features through the first weight and bias, activated.  Thirty row
  blocks of 10000 rows; the body is the dense layer's followed by the larger of each entry and zero, so a stored
  entry is max(row · column + bias entry, 0) and the output array is `relu` of `affineRow` of the region's inputs.
-/
import proofs.«176782_j17119739641883_1_alg».proof.Proof.Gen.KernelIdeal.Frame
import proofs.«176782_j17119739641883_1_alg».proof.Proof.DenseSpec
import proofs.«176782_j17119739641883_1_alg».proof.Proof.Dense0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense3

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

/-- What the body stores, at entry (p, q) of the block: the larger of zero and row p of the block against column q of
    the weight plus the bias row's entry q. -/
theorem stored_apply (x0 : Vec Ideal S10000x64 .f32) (x1 : Vec Ideal S64x64 .f32) (x2 : Vec Ideal S1x64 .f32)
    (p : Fin 10000) (q : Fin 64) :
    k3_pay1 (F := Ideal) x0 x1 x2 (ix2 p q) = max ((∑ k : Fin 64, x0 (ix2 p k) * x1 (ix2 k q)) + x2 (ix2 (0 : Fin 1) q)) 0 := by
  unfold k3_pay1
  rw [maximumf_apply, addf_apply, Dense0.product_apply, shapeCast_self, broadcastTo_1b_ab_apply]
  show max _ (Ideal.ofBits .f32 0x00000000#32) = _
  rw [Ideal.ofBits_zero_f32]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 30 grid points: the input block and the output block move together down the
    rows, the weight, the bias and every column index stay at block zero, and point `t` is at row block `t`. -/
theorem block_indices : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the activated `affineRow` of the region's input arrays. -/
theorem written_back (c : Dev nD) (t : Fin cfg3.N) :
    (dat3 (F := Ideal) V c).flushed 3 t
      = ((cfg3.win 3).blk t).view.read (Elt Ideal) (relu (affineRow (M := 300000) (V c main_arg1) (V c main_arg4) (V c main_v43))) := by
  show (cfg3.win 3).cut (grid3.coords t) ((dat3 (F := Ideal) V c).after 3 t) = _
  rw [after3_3]
  unfold out3_3
  rw [View.canon_unit_zero origin]
  simp only [View.ld_unit_zero (S := S10000x64) origin, View.ld_unit_zero (S := S64x64) origin, View.ld_unit_zero (S := S1x64) origin]
  obtain ⟨e0, e1, e2, e3, e4, e5, e6, e7⟩ := block_indices t
  funext j
  obtain ⟨p, q, rfl⟩ : ∃ (p : Fin 10000) (q : Fin 64), j = ix2 p q := ⟨j 0, j 1, eq_ix2 j⟩
  refine (stored_apply (iblk3 V c 0 t) (iblk3 V c 1 t) (iblk3 V c 2 t) p q).trans ?_
  show _ = relu (affineRow (M := 300000) (V c main_arg1) (V c main_arg4) (V c main_v43)) (((cfg3.win 3).blk t).view.emb (ix2 p q))
  unfold relu affineRow
  have hp : p.val < 10000 := p.isLt
  have hq : q.val < 64 := q.isLt
  have hrow : ∀ k : Fin 64, iblk3 V c 0 t (ix2 p k)
      = V c main_arg1 (ix2 ((((cfg3.win 3).blk t).view.emb (ix2 p q)) 0) k) := fun k => by
    show V c main_arg1 (((cfg3.win 0).blk t).view.emb (ix2 p k)) = _
    refine congrArg (V c main_arg1) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  have hcol : ∀ k : Fin 64, iblk3 V c 1 t (ix2 k q)
      = V c main_arg4 (ix2 k ((((cfg3.win 3).blk t).view.emb (ix2 p q)) 1)) := fun k => by
    show V c main_arg4 (((cfg3.win 1).blk t).view.emb (ix2 k q)) = _
    refine congrArg (V c main_arg4) (funext fun a => Fin.ext ?_)
    match a with
    | ⟨0, _⟩ => show win3_1.index t (0 : Fin 2) * 64 + 1 * k.val = k.val; omega
    | ⟨1, _⟩ => show win3_1.index t (1 : Fin 2) * 64 + 1 * q.val = win3_3.index t (1 : Fin 2) * 64 + 1 * q.val; omega
  have hbias : iblk3 V c 2 t (ix2 (0 : Fin 1) q)
      = V c main_v43 (ix2 (0 : Fin 1) ((((cfg3.win 3).blk t).view.emb (ix2 p q)) 1)) := by
    show V c main_v43 (((cfg3.win 2).blk t).view.emb (ix2 (0 : Fin 1) q)) = _
    refine congrArg (V c main_v43) (funext fun a => Fin.ext ?_)
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  rw [hbias]
  exact congrArg (fun s => max (s + _) 0) (Finset.sum_congr rfl fun k _ => by rw [hrow k, hcol k])

/-- An index of the output array is in point `t`'s block iff each coordinate is in the block's range on its axis. -/
theorem mem_block (t : Fin cfg3.N) (i : S300000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v44).slice (win3_3.rect t)).set ↔ _
  rw [View.set_slice_whole, Rect.mem_set_unit]
  exact Iff.rfl

/-- Row `r` of the output lies in the block of point `r / 10000`: the 30 blocks tile the rows. -/
theorem tiled (i : S300000x64.Idx) :
    ∃ t : Fin cfg3.N, (cfg3.win 3).flush t = true ∧ i ∈ ((cfg3.win 3).blk t).view.set := by
  have hi0 : (i 0).val < 300000 := (i 0).isLt
  have hi1 : (i 1).val < 64 := (i 1).isLt
  have hN : (i 0).val / 10000 < cfg3.N := by show _ < grid3.N; rw [N_3]; omega
  refine ⟨⟨(i 0).val / 10000, hN⟩, flush3_3 _, ?_⟩
  rw [mem_block]
  obtain ⟨e0, e1, e2, e3, e4, e5, e6, e7⟩ := block_indices ⟨(i 0).val / 10000, hN⟩
  have e6' : win3_3.index ⟨(i 0).val / 10000, hN⟩ (0 : Fin 2) = (i 0).val / 10000 := e6
  intro a
  match a with
  | ⟨0, _⟩ =>
    show win3_3.index ⟨(i 0).val / 10000, hN⟩ (0 : Fin 2) * 10000 ≤ (i 0).val ∧ (i 0).val < win3_3.index ⟨(i 0).val / 10000, hN⟩ (0 : Fin 2) * 10000 + 10000
    omega
  | ⟨1, _⟩ =>
    show win3_3.index ⟨(i 0).val / 10000, hN⟩ (1 : Fin 2) * 64 ≤ (i 1).val ∧ (i 1).val < win3_3.index ⟨(i 0).val / 10000, hN⟩ (1 : Fin 2) * 64 + 64
    omega

/-- THE OUTPUT ARRAY AFTER THE REGION: the activated `affineRow` of the input array, the weight and the bias row as the region
    finds them. -/
theorem result (c : Dev nD) :
    (dat3 (F := Ideal) V c).arrAt 3 cfg3.N = relu (affineRow (M := 300000) (V c main_arg1) (V c main_arg4) (V c main_v43)) :=
  (dat3 (F := Ideal) V c).arrAt_eq_of_cover 3 _ (fun t _ => written_back V c t) tiled

end Cert.KernelIdeal.Dense3

end
-- ==== Proof.KernelOutcome.lean ====
/-
  The two results of the kernel program as functions of its arguments.

  Walking the run's fold from the launch: region 0 leaves the affine image of the literal features under the first
  weight and bias; the host stretch after it averages those rows over the edges into the clause rows; region 1
  activates them; region 2 takes the affine image under the second weight and bias; the last host stretch averages
  those rows over the edges back into the literal rows, which is the first result; region 3 leaves the activated affine
  image of the clause features under the first weight and bias, the second result.  Each bias reaches its region as a
  one-row matrix holding the bias vector, and every argument is found as launched.
-/
import proofs.«176782_j17119739641883_1_alg».proof.Proof.KernelRun
import proofs.«176782_j17119739641883_1_alg».proof.Proof.Walk
import proofs.«176782_j17119739641883_1_alg».proof.Proof.Stretch
import proofs.«176782_j17119739641883_1_alg».proof.Proof.Dense0
import proofs.«176782_j17119739641883_1_alg».proof.Proof.Relu1
import proofs.«176782_j17119739641883_1_alg».proof.Proof.Dense2
import proofs.«176782_j17119739641883_1_alg».proof.Proof.Dense3

set_option maxRecDepth 16384

noncomputable section

namespace Cert.KernelIdeal.Outcome

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The affine map of a region whose table, weight and bias row are known: the bias row holds the bias vector. -/
theorem affineRow_of {M : ℕ} {X X' : FVec Ideal ⟨2, ![M, 64]⟩ .f32} {w w' : FVec Ideal ⟨2, ![64, 64]⟩ .f32}
    {b2 : FVec Ideal ⟨2, ![1, 64]⟩ .f32} {b : FVec Ideal ⟨1, ![64]⟩ .f32}
    (hX : X = X') (hw : w = w') (hb : ∀ q : Fin 64, b2 (ix2 (0 : Fin 1) q) = b (ix1 q)) :
    affineRow X w b2 = affine X' w' b := by
  subst hX hw
  exact affineRow_eq_affine _ _ _ _ hb

/-- A vector recast as a one-row matrix holds the vector's entries in its row. -/
theorem row_entry (b : FVec Ideal S64 .f32) (q : Fin 64) :
    (fun i => shapeCast S1x64 b shapeCasts_S64_S1x64 i) (ix2 (0 : Fin 1) q) = b (ix1 q) :=
  shapeCast_a_1a_apply b shapeCasts_S64_S1x64 0 q

/-- After region 0: the literal rows through the first dense layer. -/
theorem literalLayer_at2 (c : Dev nD) :
    (W2 m ρ c (Proc.devRef .tc main_v1) : FVec Ideal S100000x64 .f32)
      = affine (M := 100000) (m ((c : Thread nD τ).loc main_arg0)) (m ((c : Thread nD τ).loc main_arg4)) (m ((c : Thread nD τ).loc main_arg5)) :=
  (W2_arr m ρ c 3).trans ((Dense0.result (V1 m ρ) c).trans
    (affineRow_of (Walk.features_at1 m ρ c) (Walk.weight_at1 m ρ c) (fun q => by
      show (W1 m ρ c (Proc.devRef .tc main_v0) : FVec Ideal S1x64 .f32) (ix2 (0 : Fin 1) q) = _
      rw [Stretch.biasRow_at1]
      exact row_entry _ q)))

/-- At region 1's entry: those rows averaged over the edges into the clause rows. -/
theorem clauseMean_at3 (c : Dev nD) :
    (W3 m ρ c (Proc.devRef .tc main_v20) : FVec Ideal S300000x64 .f32)
      = Stretch.clauseMean (affine (M := 100000) (m ((c : Thread nD τ).loc main_arg0)) (m ((c : Thread nD τ).loc main_arg4)) (m ((c : Thread nD τ).loc main_arg5)))
          (m ((c : Thread nD τ).loc main_arg2)) (m ((c : Thread nD τ).loc main_arg3)) := by
  rw [Stretch.clauseMean_at3, literalLayer_at2, Walk.gatherIdx_at2, Walk.segmentIdx_at2]

/-- After region 1: activated. -/
theorem activated_at4 (c : Dev nD) :
    (W4 m ρ c (Proc.devRef .tc main_v21) : FVec Ideal S300000x64 .f32)
      = relu (M := 300000) (Stretch.clauseMean (affine (M := 100000) (m ((c : Thread nD τ).loc main_arg0)) (m ((c : Thread nD τ).loc main_arg4)) (m ((c : Thread nD τ).loc main_arg5)))
          (m ((c : Thread nD τ).loc main_arg2)) (m ((c : Thread nD τ).loc main_arg3))) :=
  (W4_arr m ρ c 1).trans ((Relu1.result (V3 m ρ) c).trans (congrArg (relu (M := 300000)) (clauseMean_at3 m ρ c)))

/-- After region 2: through the second dense layer. -/
theorem clauseLayer_at6 (c : Dev nD) :
    (W6 m ρ c (Proc.devRef .tc main_v23) : FVec Ideal S300000x64 .f32)
      = affine (M := 300000) (relu (M := 300000) (Stretch.clauseMean (affine (M := 100000) (m ((c : Thread nD τ).loc main_arg0)) (m ((c : Thread nD τ).loc main_arg4)) (m ((c : Thread nD τ).loc main_arg5)))
          (m ((c : Thread nD τ).loc main_arg2)) (m ((c : Thread nD τ).loc main_arg3))))
          (m ((c : Thread nD τ).loc main_arg6)) (m ((c : Thread nD τ).loc main_arg7)) :=
  (W6_arr m ρ c 3).trans ((Dense2.result (V5 m ρ) c).trans
    (affineRow_of ((Walk.activations_at5 m ρ c).trans (activated_at4 m ρ c)) (Walk.weight2_at5 m ρ c) (fun q => by
      show (W5 m ρ c (Proc.devRef .tc main_v22) : FVec Ideal S1x64 .f32) (ix2 (0 : Fin 1) q) = _
      rw [Stretch.biasRow_at5, Walk.bias2_at4]
      exact row_entry _ q)))

/-- THE FIRST RESULT: those rows averaged over the edges back into the literal rows. -/
theorem first_result (c : Dev nD) :
    (W8 m ρ c (Proc.devRef .tc main_v42) : FVec Ideal S100000x64 .f32)
      = Stretch.litMean (affine (M := 300000) (relu (M := 300000) (Stretch.clauseMean (affine (M := 100000) (m ((c : Thread nD τ).loc main_arg0)) (m ((c : Thread nD τ).loc main_arg4)) (m ((c : Thread nD τ).loc main_arg5)))
          (m ((c : Thread nD τ).loc main_arg2)) (m ((c : Thread nD τ).loc main_arg3))))
          (m ((c : Thread nD τ).loc main_arg6)) (m ((c : Thread nD τ).loc main_arg7)))
          (m ((c : Thread nD τ).loc main_arg3)) (m ((c : Thread nD τ).loc main_arg2)) := by
  refine (W8_of_ne m ρ c main_v42 (by decide)).trans ?_
  rw [Stretch.litMean_at7, clauseLayer_at6, Walk.clauseIdx_at6, Walk.litIdx_at6]

/-- THE SECOND RESULT: the clause features through the first dense layer, activated. -/
theorem second_result (c : Dev nD) :
    (W8 m ρ c (Proc.devRef .tc main_v44) : FVec Ideal S300000x64 .f32)
      = relu (M := 300000) (affine (M := 300000) (m ((c : Thread nD τ).loc main_arg1)) (m ((c : Thread nD τ).loc main_arg4)) (m ((c : Thread nD τ).loc main_arg5))) :=
  (W8_arr m ρ c 3).trans ((Dense3.result (V7 m ρ) c).trans (congrArg (relu (M := 300000))
    (affineRow_of (Walk.clauseFeatures_at7 m ρ c) (Walk.weight_at7 m ρ c) (fun q => by
      show (W7 m ρ c (Proc.devRef .tc main_v43) : FVec Ideal S1x64 .f32) (ix2 (0 : Fin 1) q) = _
      rw [Stretch.biasRow_at7, Walk.bias_at6]
      exact row_entry _ q))))

end Cert.KernelIdeal.Outcome

end
-- ==== Proof.RefDense.lean ====
/-
  The reference's dense layers and activations, read index by index.  The host's dot_general of a table with a
  64 × 64 weight, followed by the bias vector broadcast first to a one-row matrix and then down the rows and added, is
  `affine`: entry (r, c) is row r against column c plus bias entry c.  The host's maximum with the broadcast zero
  constant is `relu`.  Both are stated for an arbitrary table, so that they apply to the intermediate tables of the
  reference's run as well as to its arguments.
-/
import proofs.«176782_j17119739641883_1_alg».proof.Proof.Gen.ReferenceIdeal.Read
import proofs.«176782_j17119739641883_1_alg».proof.Proof.DenseSpec

noncomputable section

namespace Cert.ReferenceIdeal.Dense

open Cert.ReferenceIdeal Cert.ReferenceIdeal.Read Cert.Spec
open Idealize.ShloMosaic Idealize.ShloMosaic.ValueIdx

/-- The dense layer over the 100000 literal rows. -/
theorem literalLayer (X : (⟨S100000x64, .f32⟩ : BufTy).Contents (Elt Ideal)) (w : (⟨S64x64, .f32⟩ : BufTy).Contents (Elt Ideal))
    (b : (⟨S64, .f32⟩ : BufTy).Contents (Elt Ideal)) : val_main_v3 (F := Ideal) X w b = affine (M := 100000) X w b := by
  funext i
  rw [val_main_v3_apply, val_main_v0_apply, val_main_v2_apply, val_main_v1_apply]
  have e1 : ∀ k : Fin 64, lidx_main_v0 i k = ix2 (i 0) k := fun k => funext fun a => Fin.ext (by
    match a with
    | ⟨0, _⟩ => rfl
    | ⟨1, _⟩ => rfl)
  have e2 : ∀ k : Fin 64, ridx_main_v0 i k = ix2 k (i 1) := fun k => funext fun a => Fin.ext (by
    match a with
    | ⟨0, _⟩ => rfl
    | ⟨1, _⟩ => rfl)
  have e3 : idx_main_v1 (idx_main_v2 i) = ix1 (i 1) := funext fun a => Fin.ext (by
    match a with
    | ⟨0, _⟩ => rfl)
  simp only [e1, e2, e3]
  rfl

/-- The dense layer over the 300000 clause rows. -/
theorem clauseLayer (X : (⟨S300000x64, .f32⟩ : BufTy).Contents (Elt Ideal)) (w : (⟨S64x64, .f32⟩ : BufTy).Contents (Elt Ideal))
    (b : (⟨S64, .f32⟩ : BufTy).Contents (Elt Ideal)) : val_main_v50 (F := Ideal) X w b = affine (M := 300000) X w b := by
  funext i
  rw [val_main_v50_apply, val_main_v47_apply, val_main_v49_apply, val_main_v48_apply]
  have e1 : ∀ k : Fin 64, lidx_main_v47 i k = ix2 (i 0) k := fun k => funext fun a => Fin.ext (by
    match a with
    | ⟨0, _⟩ => rfl
    | ⟨1, _⟩ => rfl)
  have e2 : ∀ k : Fin 64, ridx_main_v47 i k = ix2 k (i 1) := fun k => funext fun a => Fin.ext (by
    match a with
    | ⟨0, _⟩ => rfl
    | ⟨1, _⟩ => rfl)
  have e3 : idx_main_v48 (idx_main_v49 i) = ix1 (i 1) := funext fun a => Fin.ext (by
    match a with
    | ⟨0, _⟩ => rfl)
  simp only [e1, e2, e3]
  rfl

/-- The activation between the two rounds: the maximum with the broadcast zero constant. -/
theorem activation (Y : (⟨S300000x64, .f32⟩ : BufTy).Contents (Elt Ideal)) :
    maximumf Y (val_main_call0_v0 (F := Ideal)) = relu (M := 300000) Y := by
  funext i
  show max (Y i) (val_main_call0_v0 (F := Ideal) i) = max (Y i) 0
  rw [val_main_call0_v0_apply, val_main_call0_cst_apply]
  show max (Y i) (Ideal.ofBits .f32 0x00000000#32) = _
  rw [Ideal.ofBits_zero_f32]

/-- The activation of the second result, the same operation at another call site. -/
theorem activation' (Y : (⟨S300000x64, .f32⟩ : BufTy).Contents (Elt Ideal)) :
    maximumf Y (val_main_call1_v0 (F := Ideal)) = relu (M := 300000) Y := by
  funext i
  show max (Y i) (val_main_call1_v0 (F := Ideal) i) = max (Y i) 0
  rw [val_main_call1_v0_apply, val_main_call1_cst_apply]
  show max (Y i) (Ideal.ofBits .f32 0x00000000#32) = _
  rw [Ideal.ofBits_zero_f32]

/-- THE REFERENCE'S SECOND RESULT: the clause features through the first dense layer, activated. -/
theorem second_result (a1 : (⟨S300000x64, .f32⟩ : BufTy).Contents (Elt Ideal)) (a4 : (⟨S64x64, .f32⟩ : BufTy).Contents (Elt Ideal))
    (a5 : (⟨S64, .f32⟩ : BufTy).Contents (Elt Ideal)) :
    val_main_v51 (F := Ideal) a1 a4 a5 = relu (M := 300000) (affine (M := 300000) a1 a4 a5) :=
  (activation' (val_main_v50 (F := Ideal) a1 a4 a5)).trans (congrArg (relu (M := 300000)) (clauseLayer a1 a4 a5))

end Cert.ReferenceIdeal.Dense

end
-- ==== Proof.Bridge.lean ====
/-
  The reference's first result is the same composition as the kernel program's.

  Operation by operation the reference's run is: the first dense layer on the literal features; the mean over the
  edges into the clause rows; the activation; the second dense layer; the mean over the edges back into the literal
  rows.  The two edge-averaging stretches are, operation for operation and constant for constant, the host stretches of
  the kernel program (`clauseMean`, `litMean`: the same gathers, scatter-additions, counts and divisions over the same
  dimension numbers), so the reference's composed term unfolds to those functions applied to its dense layers; the
  dense layers and the activation are `affine` and `relu`.
-/
import proofs.«176782_j17119739641883_1_alg».proof.Proof.Stretch
import proofs.«176782_j17119739641883_1_alg».proof.Proof.RefDense

set_option maxRecDepth 16384

noncomputable section

namespace Cert.Bridge

open Cert.Spec Cert.ReferenceIdeal.Read
open Idealize.ShloMosaic

/-- The reference's first result, written with the kernel program's two averaging stretches: by unfolding both sides
    to the same operations. -/
theorem reference_unfolds (a0 : (⟨Cert.ReferenceIdeal.S100000x64, .f32⟩ : BufTy).Contents (Elt Ideal))
    (a2 a3 : (⟨Cert.ReferenceIdeal.S3000000, .i32⟩ : BufTy).Contents (Elt Ideal))
    (a4 : (⟨Cert.ReferenceIdeal.S64x64, .f32⟩ : BufTy).Contents (Elt Ideal)) (a5 : (⟨Cert.ReferenceIdeal.S64, .f32⟩ : BufTy).Contents (Elt Ideal))
    (a6 : (⟨Cert.ReferenceIdeal.S64x64, .f32⟩ : BufTy).Contents (Elt Ideal)) (a7 : (⟨Cert.ReferenceIdeal.S64, .f32⟩ : BufTy).Contents (Elt Ideal)) :
    val_main_v46 (F := Ideal) a0 a2 a3 a4 a5 a6 a7
      = Cert.KernelIdeal.Stretch.litMean (F := Ideal)
          (val_main_v50 (F := Ideal)
            (maximumf (F := Ideal) (s := Cert.ReferenceIdeal.S300000x64) (φ := .f32)
              (Cert.KernelIdeal.Stretch.clauseMean (F := Ideal) (val_main_v3 (F := Ideal) a0 a4 a5) a2 a3) (val_main_call0_v0 (F := Ideal)))
            a6 a7)
          a3 a2 := rfl

/-- THE REFERENCE'S FIRST RESULT as the composition of the shared functions. -/
theorem reference_first (a0 : (⟨Cert.ReferenceIdeal.S100000x64, .f32⟩ : BufTy).Contents (Elt Ideal))
    (a2 a3 : (⟨Cert.ReferenceIdeal.S3000000, .i32⟩ : BufTy).Contents (Elt Ideal))
    (a4 : (⟨Cert.ReferenceIdeal.S64x64, .f32⟩ : BufTy).Contents (Elt Ideal)) (a5 : (⟨Cert.ReferenceIdeal.S64, .f32⟩ : BufTy).Contents (Elt Ideal))
    (a6 : (⟨Cert.ReferenceIdeal.S64x64, .f32⟩ : BufTy).Contents (Elt Ideal)) (a7 : (⟨Cert.ReferenceIdeal.S64, .f32⟩ : BufTy).Contents (Elt Ideal)) :
    val_main_v46 (F := Ideal) a0 a2 a3 a4 a5 a6 a7
      = Cert.KernelIdeal.Stretch.litMean (F := Ideal)
          (affine (M := 300000)
            (relu (M := 300000) (Cert.KernelIdeal.Stretch.clauseMean (F := Ideal) (affine (M := 100000) a0 a4 a5) a2 a3))
            a6 a7)
          a3 a2 := by
  rw [reference_unfolds, Cert.ReferenceIdeal.Dense.literalLayer, Cert.ReferenceIdeal.Dense.activation, Cert.ReferenceIdeal.Dense.clauseLayer]

end Cert.Bridge

end
-- ==== Proof.lean ====
/-
  Two rounds of message passing between 100000 literal nodes and 300000 clause nodes joined by 3000000 edges, and a
  dense transform of the clause features: the kernel program against its reference, over the extended reals.

  Both programs compute, from the literal features X_l, the clause features X_c, the two edge index arrays and two
  dense layers (W₁, b₁), (W₂, b₂):

    first result   litMean (affine (relu (clauseMean (affine X_l W₁ b₁))) W₂ b₂)        (100000 × 64)
    second result  relu (affine X_c W₁ b₁)                                             (300000 × 64)

  where `affine X W b` has entry (r, c) = Σ_k X[r, k] · W[k, c] + b[c], `relu` is the larger of each entry and zero,
  and `clauseMean` / `litMean` average, for each destination row, the source rows over the edges arriving there
  (gather, scatter-add, count, divide by the count or by one).

  The kernel program runs each `affine` and each `relu` as a TensorCore region over row blocks of 10000 rows — the
  product on the matrix unit into a zero accumulator, its operands passing through a narrower float format, which on
  extended reals changes nothing — and runs the averaging as host operations between the regions; the reference runs
  everything as host operations.  A matrix-unit product into zero and a host dot_general are the same finite sum over
  the 64 contracted entries, the blocks tile the rows, and the averaging stretches are operation for operation the
  same in the two programs, so the results agree entry by entry.  No law used here needs finite entries: sums are only
  re-indexed, never rearranged across a product, so the precondition is not opened.

  Frames: the two kernel programs' are the generated ones; the reference's is its generated run with the results
  dropped.  The idealization rewrote no operation, so `preserves` has nothing to state.
-/
import proofs.«176782_j17119739641883_1_alg».proof.Defs
import proofs.«176782_j17119739641883_1_alg».proof.Proof.Gen.Kernel
import proofs.«176782_j17119739641883_1_alg».proof.Proof.Gen.Kernel.Skeleton
import proofs.«176782_j17119739641883_1_alg».proof.Proof.Gen.Kernel.Launch
import proofs.«176782_j17119739641883_1_alg».proof.Proof.Gen.Kernel.Points
import proofs.«176782_j17119739641883_1_alg».proof.Proof.Gen.Kernel.Frame
import proofs.«176782_j17119739641883_1_alg».proof.Proof.Gen.KernelIdeal
import proofs.«176782_j17119739641883_1_alg».proof.Proof.Gen.KernelIdeal.Skeleton
import proofs.«176782_j17119739641883_1_alg».proof.Proof.Gen.KernelIdeal.Launch
import proofs.«176782_j17119739641883_1_alg».proof.Proof.Gen.KernelIdeal.Points
import proofs.«176782_j17119739641883_1_alg».proof.Proof.Gen.KernelIdeal.Frame
import proofs.«176782_j17119739641883_1_alg».proof.Proof.Gen.ReferenceIdeal
import proofs.«176782_j17119739641883_1_alg».proof.Proof.Gen.Pre_finite_inputs
import proofs.«176782_j17119739641883_1_alg».proof.Proof.Gen.ReferenceIdeal.Run
import proofs.«176782_j17119739641883_1_alg».proof.Proof.Gen.ReferenceIdeal.Read
import proofs.«176782_j17119739641883_1_alg».proof.Proof.KernelOutcome
import proofs.«176782_j17119739641883_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs run; the kernel program's result arrays are what the last boundary of its run holds for them, and the
    reference's composed terms, at arguments that agree, are those same functions of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v42),
    fun c => Cert.KernelIdeal.Gen.W8 m ρ c (Proc.devRef .tc Cert.KernelIdeal.main_v44),
    Cert.KernelIdeal.Results.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [h0, h2, h3, h4, h5, h6, h7]
    exact ((Cert.ReferenceIdeal.Read.val_main_v46_eq _ _ _ _ _ _ _).trans (Cert.Bridge.reference_first _ _ _ _ _ _ _)).trans
      (Cert.KernelIdeal.Outcome.first_result m ρ c).symm
  · obtain ⟨h0, h1, h2, h3, h4, h5, h6, h7⟩ := hagree c
    rw [h1, h4, h5]
    exact ((Cert.ReferenceIdeal.Read.val_main_v51_eq _ _ _).trans (Cert.ReferenceIdeal.Dense.second_result _ _ _)).trans
      (Cert.KernelIdeal.Outcome.second_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
